-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S16 : Shape := ⟨1, ![16]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16x2048x256 .f32) (main_arg1 : IVec S16 32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_c_0 : IVec S_ 32 := constantI S_ 32 1#32
  let main_v4 : IVec S16 32 := broadcastInDim S16 ![] bcast_S_S16 main_c_0
  let main_v5 : IVec S16 1 := cmpi .sge main_arg1 main_v4
  let main_c_1 : IVec S_ 1 := constantI S_ 1 1#1
  let main_v6 : IVec S_ 1 := (fun x v => Host.reduce IntOp.andi x v reducesTo_S16_S_d0 h_S_) main_v5 main_c_1
  let main_v7 : IVec S_ 1 := andi main_v3 main_v6
  main_v7
-- ==== Kernel.lean ====
abbrev S16x2048x256 : Shape := ⟨3, ![16, 2048, 256]⟩
abbrev S16 : Shape := ⟨1, ![16]⟩
abbrev S1x2048x256 : Shape := ⟨3, ![1, 2048, 256]⟩
abbrev S1x1024x256 : Shape := ⟨3, ![1, 1024, 256]⟩
abbrev S2048x256 : Shape := ⟨2, ![2048, 256]⟩
abbrev S1024x256 : Shape := ⟨2, ![1024, 256]⟩
abbrev S1024x2048 : Shape := ⟨2, ![1024, 2048]⟩
abbrev S1 : Shape := ⟨1, ![1]⟩
abbrev S1024 : Shape := ⟨1, ![1024]⟩
abbrev S1024x1 : Shape := ⟨2, ![1024, 1]⟩

abbrev nBuf : Space → Nat
  | .hbm => 2
  | .vmem => 4
  | .smem => 1
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S1x1024x256, .f32⟩
  | .local _ .vmem, ⟨3, _⟩ => ⟨S1x1024x256, .f32⟩
  | .local _ .smem, ⟨0, _⟩ => ⟨S16, .i32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 2], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v6 : Index := Scalar.indexCast v1
  let c0_4 : Index := 0#32
  ![v6.toNat, 0]
def k0_off2 (i : grid0.Coords) : Fin 1 → Nat :=
  let arg0 : BitVec 32 := BitVec.ofNat 32 (i 0).val
  let v10 : Index := Scalar.indexCast arg0
  ![v10.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  squeezes_S1x2048x256_S2048x256 : S1x2048x256.Squeezes S2048x256
  h_S1024x256 : 0 < S1024x256.numel
  iota_S1024x2048_d1_w32 : S1024x2048.Iotas .tc 32 [1]
  numel1_S1 : S1.numel = 1
  reduces_S1024x2048_S1024 : S1024x2048.Reduces [1] S1024
  shapeCasts_S1024_S1024x1 : S1024.ShapeCasts S1024x1
  broadcasts_S1024x1_S1024x2048 : S1024x1.Broadcasts S1024x2048
  bitsLt_bf16_f32 : FTy.bits .bf16 < FTy.bits .f32
  broadcasts_S1024x1_S1024x256 : S1024x1.Broadcasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  dot_S1024x256_S2048x256_S1024x2048_1_1_0_0_n_n_wf : DotDims.WF S1024x256 S2048x256 S1024x2048 [1] [1] [0] [0] [] []
  dot_S1024x2048_S2048x256_S1024x256_1_0_0_1_n_n_wf : DotDims.WF S1024x2048 S2048x256 S1024x256 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S2048x256.size a
  k0_off2_inb : ∀ i : grid0.Coords, ∀ a, (k0_off2 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S16x2048x256.size a
  hwx0_0 : ∀ i : grid0.Coords, EltTy.bits .f32 = 32 ∨ (Rect.block (s := S16x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S16x2048x256.size a
  hwx0_1 : ∀ i : grid0.Coords, EltTy.bits .f32 = 32 ∨ (Rect.block (s := S16x2048x256) S1x1024x256.size (cc0_transform_1 i) (hinb0_1 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev spec0_0 : Pipeline.WinSpec sig grid0.rank :=
  Pipeline.WinSpec.ofSpec (Memref.whole main_arg0) S1x2048x256.size reads0_0 false false 2 stage0_0 sem0_0 nbuf0_0 hstage0_0

abbrev spec0_1 : Pipeline.WinSpec sig grid0.rank :=
  Pipeline.WinSpec.ofSpec (Memref.whole main_v0) S1x1024x256.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S16x2048x256 : Shape := ⟨3, ![16, 2048, 256]⟩
abbrev S16 : Shape := ⟨1, ![16]⟩
abbrev S16x2048x2048 : Shape := ⟨3, ![16, 2048, 2048]⟩
abbrev S2048 : Shape := ⟨1, ![2048]⟩
abbrev S1x1x2048 : Shape := ⟨3, ![1, 1, 2048]⟩
abbrev S16x1x1 : Shape := ⟨3, ![16, 1, 1]⟩
abbrev S16x1x2048 : Shape := ⟨3, ![16, 1, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16, .i32⟩
  | .hbm, ⟨2, _⟩ => ⟨S16x2048x2048, .f32⟩
  | .hbm, ⟨3, _⟩ => ⟨S2048, .i32⟩
  | .hbm, ⟨4, _⟩ => ⟨S1x1x2048, .i32⟩
  | .hbm, ⟨5, _⟩ => ⟨S16x1x1, .i32⟩
  | .hbm, ⟨6, _⟩ => ⟨S16x1x2048, .i32⟩
  | .hbm, ⟨7, _⟩ => ⟨S16x1x2048, .i32⟩
  | .hbm, ⟨8, _⟩ => ⟨S16x1x2048, .i1⟩
  | .hbm, ⟨9, _⟩ => ⟨S_, .f32⟩
  | .hbm, ⟨10, _⟩ => ⟨S_, .f32⟩
  | .hbm, ⟨11, _⟩ => ⟨S16x2048x2048, .i1⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048, .f32⟩
  | .hbm, ⟨16, _⟩ => ⟨S_, .f32⟩
  | .hbm, ⟨17, _⟩ => ⟨S16x2048, .f32⟩
  | .hbm, ⟨18, _⟩ => ⟨S16x2048, .f32⟩
  | .hbm, ⟨19, _⟩ => ⟨S16x2048x1, .f32⟩
  | .hbm, ⟨20, _⟩ => ⟨S16x2048x2048, .f32⟩
  | .hbm, ⟨21, _⟩ => ⟨S16x2048x2048, .f32⟩
  | .hbm, ⟨22, _⟩ => ⟨S16x2048x2048, .f32⟩
  | .hbm, ⟨23, _⟩ => ⟨S_, .f32⟩
  | .hbm, ⟨24, _⟩ => ⟨S16x2048, .f32⟩
  | .hbm, ⟨25, _⟩ => ⟨S16x2048x1, .f32⟩
  | .hbm, ⟨26, _⟩ => ⟨S16x2048x2048, .f32⟩
  | .hbm, ⟨27, _⟩ => ⟨S16x2048x2048, .f32⟩
  | .hbm, ⟨28, _⟩ => ⟨S16x2048x256, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S16_S16x1x1_0 : S16.BroadcastsInDim S16x1x1 (![0] : Fin 1 → Fin S16x1x1.rank)
  bcast_S1x1x2048_S16x1x2048_0_1_2 : S1x1x2048.BroadcastsInDim S16x1x2048 (![0, 1, 2] : Fin 3 → Fin S16x1x2048.rank)
  bcast_S16x1x1_S16x1x2048_0_1_2 : S16x1x1.BroadcastsInDim S16x1x2048 (![0, 1, 2] : Fin 3 → Fin S16x1x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x256_S16x2048x256_S16x2048x2048_2_2_1_1_0_0_wf : DotDims.WF S16x2048x256 S16x2048x256 S16x2048x2048 [2] [2] [1] [1] [0] [0]
  dot_S16x2048x2048_S16x2048x256_S16x2048x256_2_1_1_2_0_0_wf : DotDims.WF S16x2048x2048 S16x2048x256 S16x2048x256 [2] [1] [1] [2] [0] [0]

variable [Facts₀]

def dot_S16x2048x256_S16x2048x256_S16x2048x2048_2_2_1_1_0_0 : DotDims S16x2048x256 S16x2048x256 S16x2048x2048 where
  lhsContracting := [2]
  rhsContracting := [2]
  lhsNonContracting := [1]
  rhsNonContracting := [1]
  lhsBatch := [0]
  rhsBatch := [0]
  wf := dot_S16x2048x256_S16x2048x256_S16x2048x2048_2_2_1_1_0_0_wf
def dot_S16x2048x2048_S16x2048x256_S16x2048x256_2_1_1_2_0_0 : DotDims S16x2048x2048 S16x2048x256 S16x2048x256 where
  lhsContracting := [2]
  rhsContracting := [1]
  lhsNonContracting := [1]
  rhsNonContracting := [2]
  lhsBatch := [0]
  rhsBatch := [0]
  wf := dot_S16x2048x2048_S16x2048x256_S16x2048x256_2_1_1_2_0_0_wf

class Facts : Prop extends Facts₀ where

variable [Facts]
-- ==== Proof.KISetup.lean ====
/-
  The attention kernel's launch, as the frame run sees it.

  The program is one pipelined region over a grid of 16 batches by 2 query tiles. Window 0 stages the whole
  batch of 2048 rows (its block index ignores the query tile, so the second tile of a batch finds the rows
  already staged), window 1 stages the tile's 1024 output rows and is written back at every point, and the
  lengths sit in scalar memory as a prefetched table that only the body reads. This module fixes the
  vocabulary the body's run and the frame are stated in: the buffers' contents when the region is entered,
  the table's contents (any contents are admissible: no index map reads them), each window's block at a grid
  point, the staging memrefs the body is called with, and how the frame run's post gives the frame claim's.
-/
import proofs.«402539_j83124797047010_3_alg».proof.Proof.Gen.KernelIdeal.Launch
import proofs.«402539_j83124797047010_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The program up to the region -/

/-- A core's buffers when the region is entered: as launched (the program is the region alone). -/
abbrev V (c : Dev nD) (b : Ref sig .tc) : Buf (Elt F) ((c : Thread nD τ).loc b) := m ((c : Thread nD τ).loc b)

/-- The program up to the region is nothing: it is the region's call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl

/-! ## The lengths, read off the launch memory -/

/-- The table's contents when the region is entered (there is one device). -/
def tbl : pre0.Contents (Elt F) := fun j => V m (0 : Dev nD) (pre0.ref j)

/-- On every device the table holds those contents. -/
theorem V_pre (c : Dev nD) (j : Fin 1) : V m c (pre0.ref j) = tbl m j := by
  obtain rfl : c = 0 := Subsingleton.elim _ _; rfl

/-- Any contents are admissible: no window's block index reads the table. -/
theorem ok_tbl : ok0 (F := F) (tbl m) := by unfold ok0; trivial

/-- The table's contents as admissible contents, and the pipeline at them. -/
abbrev adm : (pcfg0 (F := F)).Adm := ⟨tbl m, ok_tbl m⟩
abbrev cfgM : Pipeline.Cfg sig Λ₀ := cfg0 (adm m)

/-- The table as the body is handed it: its whole buffer as a memref. -/
abbrev tbM0_0 : Memref sig .tc .smem S16 .i32 := Memref.whole main_arg1
abbrev htbM0_0 : tbM0_0.IsWhole := Memref.isWhole_whole _

/-- The table's buffer on a core: its contents type, and the buffer held at half the full share (the body may read
    it, nothing may write it: the pipeline keeps the other half). -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- What the region hands the body of the table: that half. -/
theorem PhiT0_eq (c : Dev nD) : (Pipeline.ΦT pre0 (tbl m) c : sProp 𝕄) = tbPt0 c tbM0_0 (tbl m 0) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The rows' staging buffer holds the batch's block at every point, fetched there or not (at the second tile of a
    batch the block index has not moved and the body left the block in place). -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run whose proof data start at the region-entry contents: the rows' array is a staged input, so it
    ends as it began; the lengths' buffer bypasses the region and ends as the region found it. -/
theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c)⟩) h

/-! ## What the body is called with -/

/-- One staging buffer of the output window, through which its contents are stated. -/
abbrev VO0_1 : View sig .tc .vmem S1x1024x256 .f32 := (Memref.whole cc0_stg1_0 : Memref sig .tc .vmem S1x1024x256 .f32).view

/-- Each window's current staging memref at point `t`, and its wholeness. -/
abbrev ms0_0 (t : Fin (cfgM m).N) : Memref sig .tc .vmem S1x2048x256 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x1024x256 .f32 := spec0_1.stage ((cfgM m).slots t 1)
abbrev hs0_1 (t : Fin (cfgM m).N) : (ms0_1 m t).IsWhole := hstage0_1 (((cfgM m).slots t 1).cast nbuf0_1)

/-- The kernel body at point `t`, on what the pipeline calls it with. -/
abbrev bodyAt0 (a : (pcfg0 (F := F)).Adm) (t : Fin (cfg0 a).N) : Prog (TpuEff nD τ sig (Elt F) Λ₀ .tc) PUnit :=
  cc0__attn_kernel (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1))

end Cert.KernelIdeal.Hand

end
-- ==== Proof.KIRun.lean ====
/-
  The attention kernel's body, run once on whole staging memrefs.

  The body loads the batch's 2048 rows, loads the tile's 1024 query rows again through a squeezed slice of the same
  buffer at the tile's row offset, loads the batch's length from scalar memory, and stores one value — the
  tile's attention output, a pure function of those three loads — over the whole output buffer. Run symbolically,
  it leaves the rows' buffer and the lengths as they were and the output buffer with that one piece written.
-/
import proofs.«402539_j83124797047010_3_alg».proof.Proof.KISetup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- What the body's store leaves in the output's staging memref, as pieces, with the proof that on whole staging
    memrefs — the rows' at its contents, the output's at anything, the lengths held for reading — the body runs to a
    continuation that holds the rows and the lengths as they were and the output's buffer with the pieces written. -/
noncomputable def kernelRun0 (c : Dev nD) (i : grid0.Coords) (arg3 : Memref sig .tc .vmem S1x2048x256 .f32) (harg3 : arg3.IsWhole) (arg4 : Memref sig .tc .vmem S1x1024x256 .f32) (harg4 : arg4.IsWhole)
    (x0 : Vec F S1x2048x256 .f32) (xt0 : TbBuf0 (F := F) c tbM0_0) :
    { L1 : List (View.Piece (Elt F) S1x1024x256 .f32) //
      ∀ (E : Set ℕ) (K : PUnit → sProp 𝕄),
        iprop(owns (c : Thread nD τ) arg3 fullShare x0 ∗ (∃ d, owns (c : Thread nD τ) arg4 fullShare d) ∗ tbPt0 c tbM0_0 xt0
            ∗ (iprop(owns (c : Thread nD τ) arg3 fullShare x0 ∗ (∃ f, arg4.view.loc (c : Thread nD τ) ↦[arg4.view.set]{fullShare} arg4.view.writes (Elt F) f L1) ∗ tbPt0 c tbM0_0 xt0) -∗ K ⟨⟩))
          ⊢ wp frame (wpE (defs₀ (F := F)) Variants.none c none) E (cc0__attn_kernel i tbM0_0 htbM0_0 arg3 harg3 arg4 harg4) K } := by
  refine ⟨?_, fun E K => ?run⟩
  case run =>
    simp only [cc0__attn_kernel_eq_skeleton]; unfold cc0__attn_kernel_skel
    unfold owns
    iintro ⟨⟨%f0, %hf0, H0⟩, ⟨%d1, %f1, -, H1⟩, HT0, Hk⟩
    obtain rfl := harg3.eq_unread hf0
    sl_exec
    sl_step
    iapply Hk
    isplitl [H0]
    · iexists _; isplitr; · ipureintro; exact harg3.read_unread _
      iexact H0
    isplitl [H1]; · iexists _; iexact H1
    iexact HT0

end Cert.KernelIdeal.Hand

end
-- ==== Proof.KIFrame.lean ====
/-
  The attention kernel's frame: the pipelined region runs to the end at every grid point, faults nowhere, and
  leaves the rows and the lengths as it found them; and after the run the output array holds, block by block,
  what the body stored at the point that wrote the block back.

  The proof data name what each staging buffer holds after the body at a point: the rows' buffer still the batch's
  block, the output's buffer the body's one stored piece read back. Nothing is carried between points beyond the
  region's own invariant and the lengths' read share. The body obligation at a generic point is the body's run
  (the module before this one) with the buffers' contents put in its shape; the library's frame run for a pipeline
  with a prefetched table then gives the run of the whole program.
-/
import proofs.«402539_j83124797047010_3_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The run's pieces cover the output block: one of them is a store of the whole block. -/
theorem cover0_1 (c : Dev nD) (i : grid0.Coords) (arg3 : Memref sig .tc .vmem S1x2048x256 .f32) (harg3 : arg3.IsWhole) (arg4 : Memref sig .tc .vmem S1x1024x256 .f32) (harg4 : arg4.IsWhole)
    (x0 : Vec F S1x2048x256 .f32) (xt0 : TbBuf0 (F := F) c tbM0_0) (y : S1x1024x256.Idx) :
    ∃ pc ∈ (kernelRun0 c i arg3 harg3 arg4 harg4 x0 xt0).1, y ∈ pc.1.set :=
  View.cover_of_wholeMem (kernelRun0 c i arg3 harg3 arg4 harg4 x0 xt0).1 (by sl_whole_mem) y

/-- What the run leaves in the output's staging buffer: its pieces read back. -/
def out0_1 (c : Dev nD) (i : grid0.Coords) (arg3 : Memref sig .tc .vmem S1x2048x256 .f32) (harg3 : arg3.IsWhole) (arg4 : Memref sig .tc .vmem S1x1024x256 .f32) (harg4 : arg4.IsWhole)
    (x0 : Vec F S1x2048x256 .f32) (xt0 : TbBuf0 (F := F) c tbM0_0) : Vec F S1x1024x256 .f32 :=
  VO0_1.read (Elt F) (VO0_1.writes (Elt F) VO0_1.junk (kernelRun0 c i arg3 harg3 arg4 harg4 x0 xt0).1)

/-! ## What the output buffer holds after each point -/

/-- After the body at point `t`: the run's contents at the point's memrefs, the batch's block and the lengths. -/
def outsAt0 (c : Dev nD) (t : Fin (cfgM m).N) : Vec F S1x1024x256 .f32 :=
  out0_1 c (grid0.coords t) (ms0_0 m t) (hs0_0 m t) (ms0_1 m t) (hs0_1 m t) (iblk m c 0 t) (tbl m 0)

/-! ## The proof data -/

/-- The arrays as the region finds them; after the body at a point the rows' buffer at the batch's block and the
    output's at `outsAt0`; the invariant the region's own with the lengths' read share; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => (outsAt0 m c t)
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem after0_1 (c : Dev nD) (t : Fin (cfgM m).N) : (dats m 0 c).after 1 t = (outsAt0 m c t) := by dsimp only [dats]; try rfl

/-- The rows' staging buffer holds the batch's block at every point. -/
theorem before0_0 (c : Dev nD) (t : Fin (cfgM m).N) (d) : (dats m 0 c).before 0 t d = iblk m c 0 t :=
  before0_0_of m (dats m 0 c) (A_eq m c 0) (after0_0 m c) t d

/-! ## The body obligation, at a generic point -/

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t))

/-- The body at any point: the rows' memref holds the batch's block, so the run applies; the invariant passes
    through unread; the lengths' share is lent and returned; the core owes nothing throughout. -/
theorem sound_body (c : Dev nD) (t : Fin (cfgM m).N) :
    bodyPre m c t ⊢ wp frame (wpE (defs₀ (F := F)) Variants.none c none) Set.univ (bodyAt0 (adm m) t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = iprop(Pipeline.ΦA spec0 c ∗ Pipeline.ΦT pre0 (tbl m) c) from rfl, PhiT0_eq]
  unfold outsAt0
  unfold out0_1
  iintro ⟨⟨HΦ, HT0⟩, Ho, ⟨%d0, H0⟩, ⟨%d1, H1⟩⟩
  iapply ((kernelRun0 c (grid0.coords t) _ _ _ _ (iblk m c 0 t) (tbl m 0)).2 Set.univ _)
  isplitl [H0]; · iexact H0
  isplitl [H1]; · iexists _; iexact H1
  isplitl [HT0]; · iexact HT0
  iintro ⟨H0, ⟨%e1, H1⟩, HT0⟩
  isplitl [HΦ HT0]
  · isplitl [HΦ]
    · iexact HΦ
    iexact HT0
  isplitl [Ho]; · iexact Ho
  isplitl [H0]; · iexact H0
  unfold owns; iexists _; isplitr
  swap; · iexact H1
  ipureintro; exact View.read_writes_of_cover _ _ _ _ _ (cover0_1 c _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The frame: the program runs, and the rows and the lengths end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Attn.lean ====
/-
  Masked self-attention over one batch of rows, as a function of the argument arrays, index by index.

  For a batch `b`, a query row `i`, a key row `j` and a feature `d`:
  the score is the inner product of rows `i` and `j`; a key is kept when its position is below the batch's
  length (a signed comparison of 32-bit words) and otherwise the score is replaced by `-∞`; each row is shifted
  by its maximum, exponentiated and summed. The result is the weighted sum of the rows, normalised by the row's
  sum. The two programs differ only in WHERE the normalisation sits: one divides the weighted sum
  (`outK`), the other divides each weight before summing (`outR`). With real entries and at least one kept
  key in every row the row's sum is a positive real, and the two agree (proved in the module of the law).
-/
import Idealize.ShloMosaic.PureOps.Ideal
import Idealize.ShloMosaic.Lib.ValueIdx

noncomputable section

namespace Cert.Attn

open Idealize.ShloMosaic

/-- The shape of the rows' array and of the lengths' array. -/
abbrev SX : Shape := ⟨3, ![16, 2048, 256]⟩
abbrev SL : Shape := ⟨1, ![16]⟩

/-- An array's entry by its three coordinates, and a length by its batch. -/
def xOf (x0 : SX.Idx → EReal) (b : Fin 16) (i : Fin 2048) (k : Fin 256) : EReal := x0 (ValueIdx.ix3 b i k)
def lenOf (x1 : SL.Idx → BitVec 32) (b : Fin 16) : BitVec 32 := x1 (ValueIdx.ix1 b)

section
variable (x : Fin 16 → Fin 2048 → Fin 256 → EReal) (len : Fin 16 → BitVec 32)

/-- The inner product of rows `i` and `j` of batch `b`. -/
def score (b : Fin 16) (i j : Fin 2048) : EReal := ∑ k : Fin 256, x b i k * x b j k

/-- Key `j` is kept in batch `b`: its position, as a 32-bit word, is below the length in the signed order. -/
def keep (b : Fin 16) (j : Fin 2048) : Bool := (BitVec.ofNat 32 j.val).slt (len b)

/-- The score where the key is kept, `-∞` where it is not. -/
def masked (b : Fin 16) (i j : Fin 2048) : EReal := if keep len b j then score x b i j else ⊥

/-- The row's maximum, from `-∞`. -/
def rowMax (b : Fin 16) (i : Fin 2048) : EReal := (Finset.univ : Finset (Fin 2048)).fold max ⊥ (masked x len b i)

/-- The unnormalised weight of key `j` for query `i`. -/
def wgt (b : Fin 16) (i j : Fin 2048) : EReal := Ideal.exp (masked x len b i j - rowMax x len b i)

/-- The row's sum of weights. -/
def rowSum (b : Fin 16) (i : Fin 2048) : EReal := ∑ j : Fin 2048, wgt x len b i j

/-- The weighted sum of the rows, divided by the row's sum. -/
def outK (b : Fin 16) (i : Fin 2048) (d : Fin 256) : EReal :=
  Ideal.div (∑ j : Fin 2048, wgt x len b i j * x b j d) (rowSum x len b i)

/-- The sum of the rows, each weighted by its normalised weight. -/
def outR (b : Fin 16) (i : Fin 2048) (d : Fin 256) : EReal :=
  ∑ j : Fin 2048, Ideal.div (wgt x len b i j) (rowSum x len b i) * x b j d

end

end Cert.Attn

end
-- ==== Proof.AttnRow.lean ====
/-
  One query row of masked self-attention, as a function of the batch's rows `kv`, the query row `qr` and the
  batch's length `ln`: the form in which a single block of the computation sees it. The array-level
  `Cert.Attn.outK` at batch `b` and row `i` is this function of `x b`, `x b i` and `len b`, by unfolding.
-/
import proofs.«402539_j83124797047010_3_alg».proof.Proof.Attn

noncomputable section

namespace Cert.Attn

open Idealize.ShloMosaic

section
variable (kv : Fin 2048 → Fin 256 → EReal) (qr : Fin 256 → EReal) (ln : BitVec 32)

/-- The inner product of the query row with key row `j`. -/
def rScore (j : Fin 2048) : EReal := ∑ k : Fin 256, qr k * kv j k

/-- The score where the key's position is below the length (signed order of 32-bit words), `-∞` elsewhere. -/
def rMasked (j : Fin 2048) : EReal := if (BitVec.ofNat 32 j.val).slt ln then rScore kv qr j else ⊥

/-- The row's maximum, from `-∞`. -/
def rMax : EReal := (Finset.univ : Finset (Fin 2048)).fold max ⊥ (rMasked kv qr ln)

/-- The unnormalised weight of key `j`. -/
def rWgt (j : Fin 2048) : EReal := Ideal.exp (rMasked kv qr ln j - rMax kv qr ln)

/-- The weighted sum of the key rows at feature `d`, divided by the sum of the weights. -/
def rowOut (d : Fin 256) : EReal :=
  Ideal.div (∑ j : Fin 2048, rWgt kv qr ln j * kv j d) (∑ j : Fin 2048, rWgt kv qr ln j)

end

/-- The array-level result at `(b, i, d)` is the row-level one of batch `b`'s rows, row `i` and batch `b`'s length. -/
theorem outK_eq_rowOut (x : Fin 16 → Fin 2048 → Fin 256 → EReal) (len : Fin 16 → BitVec 32)
    (b : Fin 16) (i : Fin 2048) (d : Fin 256) : outK x len b i d = rowOut (x b) (x b i) (len b) d := rfl

end Cert.Attn

end
-- ==== Proof.KIPayload.lean ====
/-
  The idealized kernel's arithmetic at one grid point, read at an index. The body computes, from the batch's 2048 rows,
  the block's 1024 query rows and the batch's length word: the matrix of inner products of query rows with key rows;
  its masked form (the inner product where the key's position is below the length, "-∞" elsewhere); each row's maximum;
  the exponential of the masked score less the row's maximum; each row's sum of those weights; the product of the weight
  matrix with the rows; and the quotient of that product by the row sums. Each stage is named below as a function of the
  three values read, and read at an index; the last theorem states that the whole arithmetic at "(0, q, d)" is the
  row-level specification "Cert.Attn.rowOut" of the batch's rows, query row "q" and the length.
-/
import proofs.«402539_j83124797047010_3_alg».proof.Proof.Gen.KernelIdeal.Skeleton
import proofs.«402539_j83124797047010_3_alg».proof.Proof.AttnRow
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Hand

open Idealize.ShloMosaic Cert.KernelIdeal Cert.KernelIdeal.Gen
open Idealize.ShloMosaic.ValueIdx (ix1 ix2 ix3)

/-! ## The stages, as functions of the three values read -/

/-- The batch's rows as a matrix. -/
def keys (v2 : FVec Ideal S1x2048x256 .f32) : FVec Ideal S2048x256 .f32 :=
  shapeCast S2048x256 v2 shapeCasts_S1x2048x256_S2048x256

/-- The inner products of the query rows with the key rows. -/
def score (v2 : FVec Ideal S1x2048x256 .f32) (v7 : FVec Ideal S1024x256 .f32) : FVec Ideal S1024x2048 .f32 :=
  matmul (F := Ideal) dot_S1024x256_S2048x256_S1024x2048_1_1_0_0_n_n (some .fp32) v7 (keys v2)
    (constant (F := Ideal) S1024x2048 .f32 0x00000000#32)

/-- The mask: is the key's position below the length? -/
def below (v11 : Elt Ideal .i32) : IVec S1024x2048 1 :=
  cmpi .slt (iota .tc S1024x2048 32 [1] iota_S1024x2048_d1_w32) (broadcast S1024x2048 v11)

/-- The masked scores. -/
def masked (v2 : FVec Ideal S1x2048x256 .f32) (v7 : FVec Ideal S1024x256 .f32) (v11 : Elt Ideal .i32) :
    FVec Ideal S1024x2048 .f32 :=
  select (below v11) (score v2 v7)
    (broadcast S1024x2048 (Named.named (F := Ideal) κ "neg_big" (φ := .f32) 0xFF333332#32))

/-- Each row's maximum. -/
def rowMax (v2 : FVec Ideal S1x2048x256 .f32) (v7 : FVec Ideal S1024x256 .f32) (v11 : Elt Ideal .i32) :
    FVec Ideal S1024 .f32 :=
  multiReduction (F := Ideal) .maximumf [1] S1024 (masked v2 v7 v11) 0xFF800000#32 reduces_S1024x2048_S1024 (.inl rfl) rfl

/-- The unnormalised weights. -/
def wgt (v2 : FVec Ideal S1x2048x256 .f32) (v7 : FVec Ideal S1024x256 .f32) (v11 : Elt Ideal .i32) :
    FVec Ideal S1024x2048 .f32 :=
  exp (subf (masked v2 v7 v11)
    (broadcastTo S1024x2048 (shapeCast S1024x1 (rowMax v2 v7 v11) shapeCasts_S1024_S1024x1) broadcasts_S1024x1_S1024x2048))

/-- Each row's sum of weights. -/
def rowSum (v2 : FVec Ideal S1x2048x256 .f32) (v7 : FVec Ideal S1024x256 .f32) (v11 : Elt Ideal .i32) :
    FVec Ideal S1024 .f32 :=
  multiReduction (F := Ideal) .add [1] S1024 (wgt v2 v7 v11) 0x00000000#32 reduces_S1024x2048_S1024 (.inl rfl) rfl

/-- The weights times the rows. -/
def wsum (v2 : FVec Ideal S1x2048x256 .f32) (v7 : FVec Ideal S1024x256 .f32) (v11 : Elt Ideal .i32) :
    FVec Ideal S1024x256 .f32 :=
  matmul (F := Ideal) dot_S1024x2048_S2048x256_S1024x256_1_0_0_1_n_n none
    (truncf .bf16 (wgt v2 v7 v11) bitsLt_bf16_f32) (truncf .bf16 (keys v2) bitsLt_bf16_f32)
    (constant (F := Ideal) S1024x256 .f32 0x00000000#32)

/-- The body's arithmetic is the quotient of the last two stages, with a unit axis put in front. -/
theorem pay_eq (v2 : FVec Ideal S1x2048x256 .f32) (v7 : FVec Ideal S1024x256 .f32) (v11 : Elt Ideal .i32) :
    k0_pay1 (F := Ideal) v2 v7 v11
      = shapeCast S1x1024x256
          (divf (wsum v2 v7 v11)
            (broadcastTo S1024x256 (shapeCast S1024x1 (rowSum v2 v7 v11) shapeCasts_S1024_S1024x1) broadcasts_S1024x1_S1024x256))
          shapeCasts_S1024x256_S1x1024x256 := rfl

/-! ## Two layout operations the library does not read at coordinates: a column made of a vector, and a column spread over a row -/

/-- An "[a]" array cast to "[a, 1]" reads, at "(i, u)", the operand at "i", whatever the unit coordinate "u". -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An "[a, 1]" array broadcast to "[a, b]" reads, at "(p, c)", the operand's one column at "p". -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The operand indices of the two products -/

theorem lhs_score_0 (i : S1024x2048.Idx) (q : dot_S1024x256_S2048x256_S1024x2048_1_1_0_0_n_n.contr.Idx) :
    (dot_S1024x256_S2048x256_S1024x2048_1_1_0_0_n_n.lhsIdx i q 0).val = (i 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
theorem lhs_score_1 (i : S1024x2048.Idx) (q : dot_S1024x256_S2048x256_S1024x2048_1_1_0_0_n_n.contr.Idx) :
    (dot_S1024x256_S2048x256_S1024x2048_1_1_0_0_n_n.lhsIdx i q 1).val = (q ⟨0, by decide⟩).val :=
  dot_S1024x256_S2048x256_S1024x2048_1_1_0_0_n_n.lhsIdx_val_of_single rfl i q
theorem rhs_score_0 (i : S1024x2048.Idx) (q : dot_S1024x256_S2048x256_S1024x2048_1_1_0_0_n_n.contr.Idx) :
    (dot_S1024x256_S2048x256_S1024x2048_1_1_0_0_n_n.rhsIdx i q 0).val = (i 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
theorem rhs_score_1 (i : S1024x2048.Idx) (q : dot_S1024x256_S2048x256_S1024x2048_1_1_0_0_n_n.contr.Idx) :
    (dot_S1024x256_S2048x256_S1024x2048_1_1_0_0_n_n.rhsIdx i q 1).val = (q ⟨0, by decide⟩).val :=
  dot_S1024x256_S2048x256_S1024x2048_1_1_0_0_n_n.rhsIdx_val_of_single rfl i q

theorem lhs_wsum_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhs_wsum_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem rhs_wsum_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem rhs_wsum_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-! ## The stages read at an index -/

section
variable (v2 : FVec Ideal S1x2048x256 .f32) (v7 : FVec Ideal S1024x256 .f32) (v11 : Elt Ideal .i32)

/-- Key row "j" at feature "k". -/
theorem keys_apply (j : Fin 2048) (k : Fin 256) : keys v2 (ix2 j k) = v2 (ix3 (0 : Fin 1) j k) :=
  ValueIdx.shapeCast_1ab_ab_apply v2 shapeCasts_S1x2048x256_S2048x256 j k

/-- The score of query row "q" against key row "j": the sum over the features of the products. -/
theorem score_apply (q : Fin 1024) (j : Fin 2048) :
    score v2 v7 (ix2 q j) = ∑ k : Fin 256, v7 (ix2 q k) * v2 (ix3 (0 : Fin 1) j k) := by
  unfold score
  refine (Ideal.matmul_constant_zero_apply dot_S1024x256_S2048x256_S1024x2048_1_1_0_0_n_n (some .fp32) v7 (keys v2) (ix2 q j)).trans ?_
  rw [← Equiv.sum_comp (ValueIdx.contrEquiv1 dot_S1024x256_S2048x256_S1024x2048_1_1_0_0_n_n 256 rfl rfl).symm]
  refine Finset.sum_congr rfl fun k _ => ?_
  have hk := ValueIdx.contrEquiv1_symm_val dot_S1024x256_S2048x256_S1024x2048_1_1_0_0_n_n 256 rfl rfl k
  have el : dot_S1024x256_S2048x256_S1024x2048_1_1_0_0_n_n.lhsIdx (ix2 q j) ((ValueIdx.contrEquiv1 dot_S1024x256_S2048x256_S1024x2048_1_1_0_0_n_n 256 rfl rfl).symm k) = ix2 q k := funext fun a => Fin.ext (by
    match a with
    | ⟨0, _⟩ => exact lhs_score_0 _ _
    | ⟨1, _⟩ => exact (lhs_score_1 _ _).trans hk)
  have er : dot_S1024x256_S2048x256_S1024x2048_1_1_0_0_n_n.rhsIdx (ix2 q j) ((ValueIdx.contrEquiv1 dot_S1024x256_S2048x256_S1024x2048_1_1_0_0_n_n 256 rfl rfl).symm k) = ix2 j k := funext fun a => Fin.ext (by
    match a with
    | ⟨0, _⟩ => exact rhs_score_0 _ _
    | ⟨1, _⟩ => exact (rhs_score_1 _ _).trans hk)
  rw [el, er, keys_apply]

/-- The mask at "(q, j)" compares the position "j", as a 32-bit word, with the length. -/
theorem below_apply (q : Fin 1024) (j : Fin 2048) :
    below v11 (ix2 q j) = IntOp.cmpi .slt (BitVec.ofNat 32 j.val) v11 := by
  unfold below
  show IntOp.cmpi .slt (iota .tc S1024x2048 32 [1] iota_S1024x2048_d1_w32 (ix2 q j)) v11 = _
  rw [iota_single_apply]

/-- The constant the mask puts where the position is not below the length is "-∞". -/
theorem neg_big : Named.named (F := Ideal) κ "neg_big" (φ := .f32) 0xFF333332#32 = (⊥ : EReal) :=
  IdealRules.named_const.ideal_named_scalar _ _ _ _ rfl

end

/-! ## The stages against the row-level specification -/

section
variable (v2 : FVec Ideal S1x2048x256 .f32) (v7 : FVec Ideal S1024x256 .f32) (v11 : Elt Ideal .i32)

/-- The index a reduction along the second axis reads: the kept coordinate with the reduced one put back. -/
theorem lift_ix1 (q : Fin 1024) (j : Fin 2048) :
    reduces_S1024x2048_S1024.lift (ix1 q) j = (ix2 q j : S1024x2048.Idx) :=
  funext fun a => Fin.ext (by match a with | ⟨0, _⟩ => rfl | ⟨1, _⟩ => rfl)

/-- The masked score at "(q, j)" is the specification's, of the batch's rows, query row "q" and the length. -/
theorem masked_apply (q : Fin 1024) (j : Fin 2048) :
    masked v2 v7 v11 (ix2 q j)
      = Cert.Attn.rMasked (fun j k => v2 (ix3 (0 : Fin 1) j k)) (fun k => v7 (ix2 q k)) v11 j := by
  unfold masked Cert.Attn.rMasked Cert.Attn.rScore
  rw [ValueIdx.select_apply, below_apply, score_apply, ValueIdx.broadcast_apply, neg_big]
  show (if BitVec.ofBool ((BitVec.ofNat 32 j.val).slt v11) = 1#1 then _ else _) = _
  cases (BitVec.ofNat 32 j.val).slt v11
  · rw [if_neg (by decide), if_neg (by decide)]
  · rw [if_pos (by decide), if_pos rfl]

/-- The row's maximum. -/
theorem rowMax_apply (q : Fin 1024) :
    rowMax v2 v7 v11 (ix1 q)
      = Cert.Attn.rMax (fun j k => v2 (ix3 (0 : Fin 1) j k)) (fun k => v7 (ix2 q k)) v11 := by
  unfold rowMax Cert.Attn.rMax
  refine (Ideal.multiReduction_maximumf_single (masked v2 v7 v11) 0xFF800000#32 reduces_S1024x2048_S1024 (.inl rfl) rfl (ix1 q)).trans ?_
  have hb : FloatOps.ofBits (F := Ideal) .f32 0xFF800000#32 = (⊥ : EReal) := by
    show Ideal.ofBits .f32 0xFF800000#32 = ⊥
    simp [Ideal.ofBits, Ideal.ieee]
  rw [hb]
  refine congrArg (fun f => Finset.fold max (⊥ : EReal) f (Finset.univ : Finset (Fin 2048))) (funext fun (j : Fin 2048) => ?_)
  exact (congrArg (masked v2 v7 v11) (lift_ix1 q j)).trans (masked_apply v2 v7 v11 q j)

end

section
variable (v2 : FVec Ideal S1x2048x256 .f32) (v7 : FVec Ideal S1024x256 .f32) (v11 : Elt Ideal .i32)

/-- The weight at "(q, j)": the exponential of the masked score less the row's maximum. -/
theorem wgt_apply (q : Fin 1024) (j : Fin 2048) :
    wgt v2 v7 v11 (ix2 q j)
      = Cert.Attn.rWgt (fun j k => v2 (ix3 (0 : Fin 1) j k)) (fun k => v7 (ix2 q k)) v11 j := by
  unfold wgt Cert.Attn.rWgt
  show Ideal.exp (masked v2 v7 v11 (ix2 q j)
      - broadcastTo S1024x2048 (shapeCast S1024x1 (rowMax v2 v7 v11) shapeCasts_S1024_S1024x1) broadcasts_S1024x1_S1024x2048 (ix2 q j)) = _
  rw [masked_apply, broadcastTo_a1_ab_apply, shapeCast_a_a1_apply, rowMax_apply]

/-- The row's sum of weights. -/
theorem rowSum_apply (q : Fin 1024) :
    rowSum v2 v7 v11 (ix1 q)
      = ∑ j : Fin 2048, Cert.Attn.rWgt (fun j k => v2 (ix3 (0 : Fin 1) j k)) (fun k => v7 (ix2 q k)) v11 j := by
  unfold rowSum
  refine (Ideal.multiReduction_add_single (wgt v2 v7 v11) 0x00000000#32 reduces_S1024x2048_S1024 (.inl rfl) rfl (ix1 q)).trans ?_
  refine Finset.sum_congr rfl fun (j : Fin 2048) _ => ?_
  exact (congrArg (wgt v2 v7 v11) (lift_ix1 q j)).trans (wgt_apply v2 v7 v11 q j)

/-- The weighted sum of the key rows at "(q, d)". -/
theorem wsum_apply (q : Fin 1024) (d : Fin 256) :
    wsum v2 v7 v11 (ix2 q d)
      = ∑ j : Fin 2048, Cert.Attn.rWgt (fun j k => v2 (ix3 (0 : Fin 1) j k)) (fun k => v7 (ix2 q k)) v11 j
          * v2 (ix3 (0 : Fin 1) j d) := by
  unfold wsum
  refine (Ideal.matmul_constant_zero_apply dot_S1024x2048_S2048x256_S1024x256_1_0_0_1_n_n none
    (truncf .bf16 (wgt v2 v7 v11) bitsLt_bf16_f32) (truncf .bf16 (keys v2) bitsLt_bf16_f32) (ix2 q d)).trans ?_
  rw [← Equiv.sum_comp (ValueIdx.contrEquiv1 dot_S1024x2048_S2048x256_S1024x256_1_0_0_1_n_n 2048 rfl rfl).symm]
  refine Finset.sum_congr rfl fun k _ => ?_
  have hk := ValueIdx.contrEquiv1_symm_val dot_S1024x2048_S2048x256_S1024x256_1_0_0_1_n_n 2048 rfl rfl k
  have el : dot_S1024x2048_S2048x256_S1024x256_1_0_0_1_n_n.lhsIdx (ix2 q d) ((ValueIdx.contrEquiv1 dot_S1024x2048_S2048x256_S1024x256_1_0_0_1_n_n 2048 rfl rfl).symm k) = ix2 q k := funext fun a => Fin.ext (by
    match a with
    | ⟨0, _⟩ => exact lhs_wsum_0 _ _
    | ⟨1, _⟩ => exact (lhs_wsum_1 _ _).trans hk)
  have er : dot_S1024x2048_S2048x256_S1024x256_1_0_0_1_n_n.rhsIdx (ix2 q d) ((ValueIdx.contrEquiv1 dot_S1024x2048_S2048x256_S1024x256_1_0_0_1_n_n 2048 rfl rfl).symm k) = ix2 k d := funext fun a => Fin.ext (by
    match a with
    | ⟨0, _⟩ => exact (rhs_wsum_0 _ _).trans hk
    | ⟨1, _⟩ => exact rhs_wsum_1 _ _)
  rw [el, er]
  show wgt v2 v7 v11 (ix2 q k) * keys v2 (ix2 k d) = _
  rw [wgt_apply, keys_apply]

end

/-- The body's arithmetic at "(0, q, d)" is the row-level specification of the batch's rows, query row "q" and the
    batch's length, at feature "d". -/
theorem pay_apply (v2 : Vec Ideal S1x2048x256 .f32) (v7 : Vec Ideal S1024x256 .f32) (v11 : Elt Ideal .i32) (q : Fin 1024) (d : Fin 256) :
    k0_pay1 (F := Ideal) v2 v7 v11 (ValueIdx.ix3 (0 : Fin 1) q d)
      = Cert.Attn.rowOut (fun j k => v2 (ValueIdx.ix3 (0 : Fin 1) j k)) (fun k => v7 (ValueIdx.ix2 q k)) v11 d := by
  refine (congrFun (pay_eq v2 v7 v11) (ix3 (0 : Fin 1) q d)).trans ?_
  refine (ValueIdx.shapeCast_ab_1ab_apply _ shapeCasts_S1024x256_S1x1024x256 (0 : Fin 1) q d).trans ?_
  show Ideal.div (wsum v2 v7 v11 (ix2 q d))
      (broadcastTo S1024x256 (shapeCast S1024x1 (rowSum v2 v7 v11) shapeCasts_S1024_S1024x1) broadcasts_S1024x1_S1024x256 (ix2 q d)) = _
  rw [wsum_apply, broadcastTo_a1_ab_apply, shapeCast_a_a1_apply, rowSum_apply]
  rfl

end Cert.KernelIdeal.Hand

end
-- ==== Proof.KIValue.lean ====
/-
  The idealized attention kernel's output array, as one function of the two argument arrays.

  At a grid point — a batch `b` and a tile `qi` of 1024 query rows — the body stores one value over the whole
  output block: its arithmetic of three loads. The first load is the batch's block of the rows' array (row `j`,
  feature `k` of the block is entry `(b, j, k)` of the array); the second reads rows `1024·qi ‥ 1024·qi + 1023`
  of the same block through a view of the buffer, so query row `q` of the tile is entry `(b, 1024·qi + q, k)`;
  the third is the batch's length. Read at row `q` and feature `d`, the arithmetic is the row-level specification
  of those three, which is the array-level specification at `(b, 1024·qi + q, d)` — exactly the array index
  that element `(0, q, d)` of the output block is written back to. Every tile of every batch is some point's block
  and the output is written back at every point, so the blocks cover the array, and the array after the run is the
  specification everywhere.
-/
import proofs.«402539_j83124797047010_3_alg».proof.Proof.KIFrame
import proofs.«402539_j83124797047010_3_alg».proof.Proof.KIPayload
import proofs.«402539_j83124797047010_3_alg».proof.Proof.AttnRow
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

local notation "𝕄" => MT nD τ sig Unit (Elt F) ℕ (UR sig nD τ) ℕ

theorem hz3 : (![0, 0, 0] : Fin 3 → Nat) = fun _ => 0 := funext fun a => by fin_cases a <;> rfl

/-- The tile's query rows as the body loads them: through the squeezed slice of the rows' memref, at the tile's row offset. -/
def qrows (i : grid0.Coords) (arg3 : Memref sig .tc .vmem S1x2048x256 .f32) (harg3 : arg3.IsWhole) (x0 : Vec F S1x2048x256 .f32) : Vec F S1024x256 .f32 :=
  View.readAt (Elt F) ((arg3.slice (Rect.unit (s := S1x2048x256) ![0, 0, 0] S1x2048x256.size inb_S1x2048x256_S1x2048x256_0_0_0) (fun _ => rfl)).squeeze S2048x256 squeezes_S1x2048x256_S2048x256).view
    (Rect.unit (s := S2048x256) (k0_off1 i) S1024x256.size (k0_off1_inb i)).toLoadRect (harg3.unread x0)

/-- The batch's length as the body loads it: one word of the table, at the batch's position. -/
def lenWord (c : Dev nD) (i : grid0.Coords) (xt0 : TbBuf0 (F := F) c tbM0_0) : Elt F .i32 :=
  View.readAt (Elt F) tbM0_0.view (Rect.unit (s := S16) (k0_off2 i) S1.size (k0_off2_inb i)).toLoadRect xt0 (Shape.Idx.first (numel1_S1.symm ▸ Nat.one_pos))

/-- What the run leaves in the output's buffer is the body's arithmetic of its three loads. -/
theorem out0_1_eq (c : Dev nD) (i : grid0.Coords) (arg3 : Memref sig .tc .vmem S1x2048x256 .f32) (harg3 : arg3.IsWhole) (arg4 : Memref sig .tc .vmem S1x1024x256 .f32) (harg4 : arg4.IsWhole)
    (x0 : Vec F S1x2048x256 .f32) (xt0 : TbBuf0 (F := F) c tbM0_0) :
    out0_1 c i arg3 harg3 arg4 harg4 x0 xt0 = k0_pay1 x0 (qrows i arg3 harg3 x0) (lenWord c i xt0) := by
  unfold out0_1
  rw [View.read_writes_eq_canon _ _ _ (cover0_1 c i arg3 harg3 arg4 harg4 x0 xt0)]
  unfold kernelRun0
  dsimp only
  sl_unfold_words
  rw [View.canon_unit_zero hz3]
  have e2 : View.readAt (Elt F) arg3.view (Rect.unit (s := S1x2048x256) ![0, 0, 0] S1x2048x256.size inb_S1x2048x256_S1x2048x256_0_0_0).toLoadRect (harg3.unread x0) = x0 := by
    rw [View.readAt_eq_ld, harg3.read_unread, View.ld_unit_zero (S := S1x2048x256) hz3]
  rw [e2]
  rfl

/-- The query rows at `(q, k)`: the rows' block at row `1024·(tile) + q`. -/
theorem qrows_apply (i : grid0.Coords) (arg3 : Memref sig .tc .vmem S1x2048x256 .f32) (harg3 : arg3.IsWhole) (x0 : Vec F S1x2048x256 .f32)
    (q : Fin 1024) (k : Fin 256) (hq : 1024 * (i 1).val + q.val < 2048) :
    qrows i arg3 harg3 x0 (ix2 q k) = x0 (ix3 (0 : Fin 1) (⟨1024 * (i 1).val + q.val, hq⟩ : Fin 2048) k) := by
  unfold qrows
  rw [View.readAt_apply, Memref.read_squeeze_slice arg3 _ (fun _ => rfl) squeezes_S1x2048x256_S2048x256 shapeCasts_S1x2048x256_S2048x256,
    View.readAt_eq_ld, harg3.read_unread, View.ld_unit_zero (S := S1x2048x256) hz3]
  have eidx : (Rect.unit (s := S2048x256) (k0_off1 i) S1024x256.size (k0_off1_inb i)).toLoadRect.idx (ix2 q k) = ix2 (⟨1024 * (i 1).val + q.val, hq⟩ : Fin 2048) k := by
    funext a; apply Fin.ext
    match a with
    | ⟨0, _⟩ => show k0_off1 i 0 + 1 * q.val = 1024 * (i 1).val + q.val; rw [k0_off1_eq]; show 1024 * (i 1).val + 1 * q.val = _; omega
    | ⟨1, _⟩ => show k0_off1 i 1 + 1 * k.val = k.val; rw [k0_off1_eq]; show 0 + 1 * k.val = _; omega
  rw [eidx]
  exact shapeCast_1ab_ab_apply x0 _ _ _

/-- The length word is the table's entry at the batch. -/
theorem lenWord_apply (c : Dev nD) (i : grid0.Coords) (xt0 : TbBuf0 (F := F) c tbM0_0) (X : S16.Idx → Elt F .i32) (hX : tbM0_0.view.read (Elt F) xt0 = X)
    (hb : (i 0).val < 16) : lenWord c i xt0 = X (ix1 (⟨(i 0).val, hb⟩ : Fin 16)) := by
  unfold lenWord
  rw [View.readAt_apply, hX]
  refine congrArg X ?_
  funext a; apply Fin.ext
  match a with
  | ⟨0, _⟩ => show k0_off2 i 0 + 1 * 0 = (i 0).val; rw [k0_off2_eq]; show (i 0).val + 1 * 0 = _; omega

/-! ## At the ideal instance: the array after the run -/

section AtIdeal

variable (m : (ℓ : Loc nD τ sig) → Buf (Elt Ideal) ℓ) (ρ : Dev nD → PrngReg)

/-- The output array as one function of the two argument arrays, index by index. -/
def Gfun (X : S16x2048x256.Idx → EReal) (Ln : S16.Idx → BitVec 32) : S16x2048x256.Idx → EReal :=
  fun i => Cert.Attn.outK (Cert.Attn.xOf X) (Cert.Attn.lenOf Ln) (i 0) (i 1) (i 2)

/-- The printed block-index maps over the grid: the rows' block is the batch's, the output's the batch's tile. -/
theorem idx_facts : ∀ t : Fin grid0.N,
    cc0_transform_0 (grid0.coords t) = ![(grid0.coords t 0).val, 0, 0]
    ∧ cc0_transform_1 (grid0.coords t) = ![(grid0.coords t 0).val, (grid0.coords t 1).val, 0] := by
  decide +kernel

theorem coords_lt (t : Fin grid0.N) : (grid0.coords t 0).val < 16 ∧ (grid0.coords t 1).val < 2 :=
  ⟨(grid0.coords t 0).isLt, (grid0.coords t 1).isLt⟩

/-- The rows' block at a point, at its literal type. -/
abbrev rowsAt (c : Dev nD) (t : Fin (cfgM m).N) : Vec Ideal S1x2048x256 .f32 := iblk m c 0 t

/-- An element of the rows' block at a point is the array's element of the point's batch. -/
theorem iblk0_apply (c : Dev nD) (t : Fin (cfgM m).N) (j : Fin 2048) (k : Fin 256) (hb : (grid0.coords t 0).val < 16) :
    rowsAt m c t (ix3 (0 : Fin 1) j k) = V m c main_arg0 (ix3 (⟨(grid0.coords t 0).val, hb⟩ : Fin 16) j k) := by
  show V m c main_arg0 ((((cfgM m).win 0).blk t).view.emb (ix3 (0 : Fin 1) j k)) = _
  refine congrArg (V m c main_arg0) ?_
  obtain ⟨e0, -⟩ := idx_facts t
  funext a; apply Fin.ext
  match a with
  | ⟨0, _⟩ => show cc0_transform_0 (grid0.coords t) 0 * 1 + 1 * 0 = (grid0.coords t 0).val; rw [e0]; show (grid0.coords t 0).val * 1 + 1 * 0 = _; omega
  | ⟨1, _⟩ => show cc0_transform_0 (grid0.coords t) 1 * 2048 + 1 * j.val = j.val; rw [e0]; show 0 * 2048 + 1 * j.val = _; omega
  | ⟨2, _⟩ => show cc0_transform_0 (grid0.coords t) 2 * 256 + 1 * k.val = k.val; rw [e0]; show 0 * 256 + 1 * k.val = _; omega

/-- The table's contents read through its memref are the lengths' array. -/
theorem tbl_read (c : Dev nD) : tbM0_0.view.read (Elt Ideal) (tbl m 0) = V m c main_arg1 := by
  obtain rfl : c = 0 := Subsingleton.elim _ _
  rfl

/-- THE VALUE AT A POINT: the output's buffer after the body at point `t`, at row `q` and feature `d`, is the
    specification at the point's batch, the tile's row and the feature. -/
theorem point_value (c : Dev nD) (t : Fin (cfgM m).N) (q : Fin 1024) (d : Fin 256)
    (hb : (grid0.coords t 0).val < 16) (hq : 1024 * (grid0.coords t 1).val + q.val < 2048) :
    outsAt0 m c t (ix3 (0 : Fin 1) q d)
      = Gfun (V m c main_arg0) (V m c main_arg1) (ix3 (⟨(grid0.coords t 0).val, hb⟩ : Fin 16) (⟨1024 * (grid0.coords t 1).val + q.val, hq⟩ : Fin 2048) d) := by
  have ekv : (fun (j : Fin 2048) (k : Fin 256) => rowsAt m c t (ix3 (0 : Fin 1) j k))
      = Cert.Attn.xOf (V m c main_arg0) (⟨(grid0.coords t 0).val, hb⟩ : Fin 16) :=
    funext fun j => funext fun k => iblk0_apply m c t j k hb
  have eqr : (fun (k : Fin 256) => qrows (grid0.coords t) (ms0_0 m t) (hs0_0 m t) (rowsAt m c t) (ix2 q k))
      = Cert.Attn.xOf (V m c main_arg0) (⟨(grid0.coords t 0).val, hb⟩ : Fin 16) (⟨1024 * (grid0.coords t 1).val + q.val, hq⟩ : Fin 2048) :=
    funext fun k => (qrows_apply (grid0.coords t) (ms0_0 m t) (hs0_0 m t) (rowsAt m c t) q k hq).trans (iblk0_apply m c t _ k hb)
  have eln : lenWord c (grid0.coords t) (tbl m 0) = Cert.Attn.lenOf (V m c main_arg1) (⟨(grid0.coords t 0).val, hb⟩ : Fin 16) :=
    lenWord_apply c (grid0.coords t) (tbl m 0) (V m c main_arg1) (tbl_read m c) hb
  unfold outsAt0
  refine (congrFun (out0_1_eq (F := Ideal) c (grid0.coords t) (ms0_0 m t) (hs0_0 m t) (ms0_1 m t) (hs0_1 m t) (rowsAt m c t) (tbl m 0)) (ix3 (0 : Fin 1) q d)).trans ?_
  refine (pay_apply (rowsAt m c t) (qrows (grid0.coords t) (ms0_0 m t) (hs0_0 m t) (rowsAt m c t)) (lenWord c (grid0.coords t) (tbl m 0)) q d).trans ?_
  rw [ekv, eqr, eln]
  rfl

/-- The same, for an index of the output block given by its row and feature (its unit coordinate is `0`). -/
theorem point_value' (c : Dev nD) (t : Fin (cfgM m).N) (y : S1x1024x256.Idx) (q : Fin 1024) (d : Fin 256) (hy : y = ix3 (0 : Fin 1) q d)
    (hb : (grid0.coords t 0).val < 16) (hq : 1024 * (grid0.coords t 1).val + q.val < 2048) :
    outsAt0 m c t y
      = Gfun (V m c main_arg0) (V m c main_arg1) (ix3 (⟨(grid0.coords t 0).val, hb⟩ : Fin 16) (⟨1024 * (grid0.coords t 1).val + q.val, hq⟩ : Fin 2048) d) := by
  subst hy
  exact point_value m c t q d hb hq

/-- WHAT POINT `t` WRITES BACK is block `t` of the specification of the argument arrays as the region finds them. -/
theorem flushed_eq (c : Dev nD) (t : Fin (cfgM m).N) :
    (dats m 0 c).flushed 1 t = (((cfgM m).win 1).blk t).view.read (Elt Ideal) (Gfun (V m c main_arg0) (V m c main_arg1)) := by
  show ((cfgM m).win 1).cut (grid0.coords t) ((dats m 0 c).after 1 t) = _
  rw [after0_1]
  refine funext fun (y : S1x1024x256.Idx) => ?_
  obtain ⟨hb, hqi⟩ := coords_lt t
  have h1 : (y 1).val < 1024 := (y 1).isLt
  have h2 : (y 2).val < 256 := (y 2).isLt
  have h0 : (y 0).val < 1 := (y 0).isLt
  have hq : 1024 * (grid0.coords t 1).val + (y 1).val < 2048 := by omega
  have hy : y = ix3 (0 : Fin 1) (⟨(y 1).val, h1⟩ : Fin 1024) (⟨(y 2).val, h2⟩ : Fin 256) := by
    funext a; apply Fin.ext
    match a with
    | ⟨0, _⟩ => show (y 0).val = 0; omega
    | ⟨1, _⟩ => rfl
    | ⟨2, _⟩ => rfl
  show outsAt0 m c t y = Gfun (V m c main_arg0) (V m c main_arg1) ((((cfgM m).win 1).blk t).view.emb y)
  refine (point_value' m c t y _ _ hy hb hq).trans ?_
  refine congrArg (Gfun (V m c main_arg0) (V m c main_arg1)) ?_
  obtain ⟨-, e1⟩ := idx_facts t
  funext a; apply Fin.ext
  match a with
  | ⟨0, _⟩ => show (grid0.coords t 0).val = cc0_transform_1 (grid0.coords t) 0 * 1 + 1 * (y 0).val; rw [e1]; show _ = (grid0.coords t 0).val * 1 + 1 * (y 0).val; omega
  | ⟨1, _⟩ => show 1024 * (grid0.coords t 1).val + (y 1).val = cc0_transform_1 (grid0.coords t) 1 * 1024 + 1 * (y 1).val; rw [e1]; show _ = (grid0.coords t 1).val * 1024 + 1 * (y 1).val; omega
  | ⟨2, _⟩ => show (y 2).val = cc0_transform_1 (grid0.coords t) 2 * 256 + 1 * (y 2).val; rw [e1]; show _ = 0 * 256 + 1 * (y 2).val; omega

/-- An index of the array is in point `t`'s block iff each coordinate is in the block's range on its axis. -/
theorem mem_blk (t : Fin (cfgM m).N) (i : S16x2048x256.Idx) :
    i ∈ (((cfgM m).win 1).blk t).view.set ↔ ∀ a : Fin 3, cc0_transform_1 (grid0.coords t) a * S1x1024x256.size a ≤ (i a).val ∧ (i a).val < cc0_transform_1 (grid0.coords t) a * S1x1024x256.size a + S1x1024x256.size a := by
  have e : (((cfgM m).win 1).blk t).view.set = (((cfgM m).win 1).rect t).set := View.set_slice_whole main_v0 _
  rw [e]
  exact Rect.mem_set_unit

/-- Every tile of every batch is some point's block, -/
theorem idx_onto : ∀ (b : Fin 16) (qi : Fin 2), ∃ t : Fin grid0.N, cc0_transform_1 (grid0.coords t) = ![b.val, qi.val, 0] := by
  decide +kernel

/-- and the output is written back at every point. -/
theorem flush0_1 : ∀ t : Fin (cfgM m).N, ((cfgM m).win 1).flush t = true :=
  (by decide +kernel : ∀ t : Fin grid0.N, Pipeline.Window.flushOf grid0 true cc0_transform_1 t = true)

/-- The blocks written back cover the array: row `r` of batch `b` is in the block of tile `r / 1024`. -/
theorem cover (i : S16x2048x256.Idx) : ∃ t : Fin (cfgM m).N, ((cfgM m).win 1).flush t = true ∧ i ∈ (((cfgM m).win 1).blk t).view.set := by
  have hi0 : (i 0).val < 16 := (i 0).isLt
  have hi1 : (i 1).val < 2048 := (i 1).isLt
  have hi2 : (i 2).val < 256 := (i 2).isLt
  obtain ⟨t, ht⟩ := idx_onto ⟨(i 0).val, hi0⟩ ⟨(i 1).val / 1024, by omega⟩
  refine ⟨t, flush0_1 m t, ?_⟩
  rw [mem_blk]
  intro a
  match a with
  | ⟨0, _⟩ => show cc0_transform_1 (grid0.coords t) 0 * 1 ≤ (i 0).val ∧ (i 0).val < cc0_transform_1 (grid0.coords t) 0 * 1 + 1; rw [ht]; show (i 0).val * 1 ≤ (i 0).val ∧ (i 0).val < (i 0).val * 1 + 1; omega
  | ⟨1, _⟩ => show cc0_transform_1 (grid0.coords t) 1 * 1024 ≤ (i 1).val ∧ (i 1).val < cc0_transform_1 (grid0.coords t) 1 * 1024 + 1024; rw [ht]; show (i 1).val / 1024 * 1024 ≤ (i 1).val ∧ (i 1).val < (i 1).val / 1024 * 1024 + 1024; omega
  | ⟨2, _⟩ => show cc0_transform_1 (grid0.coords t) 2 * 256 ≤ (i 2).val ∧ (i 2).val < cc0_transform_1 (grid0.coords t) 2 * 256 + 256; rw [ht]; show 0 * 256 ≤ (i 2).val ∧ (i 2).val < 0 * 256 + 256; omega

/-- THE ARRAY after the run: the specification of the argument arrays, everywhere. -/
theorem final (c : Dev nD) : (dats m 0 c).arrAt 1 (cfgM m).N = Gfun (V m c main_arg0) (V m c main_arg1) :=
  (dats m 0 c).arrAt_eq_of_cover 1 (Gfun (V m c main_arg0) (V m c main_arg1)) (fun t _ => flushed_eq m c t) (cover m)

/-- The frame run re-posted: the output array at its function of the arguments, the arguments unchanged. -/
theorem run : θ_run defs (onTc (τ := τ) (main (F := Ideal))) ⟨m, fun _ => 0, ρ⟩ fun r => ∀ c : Dev nD,
      r.2.mem ((c.tc : Thread nD τ).loc main_v0) = Gfun (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 1).trans (final m c),
      ((h c).1 0).trans (((dats m 0 c).arrAt_in 0 rfl _).trans ((A_eq m c 0).trans (V_main_arg0 m c))),
      ((h c).2 main_arg1 (by decide : main_arg1 ∈ Pipeline.restRefs sig spec0)).trans (V_main_arg1 m c)⟩)
    (run_main m ρ)

end AtIdeal

end Cert.KernelIdeal.Hand

end
-- ==== Proof.RefValue.lean ====
/-
  The reference program's result, read index by index.

  The program computes, for every batch `b`, query row `q` and feature `d`: the inner products of the rows (the scores),
  a comparison of each key's position with the batch's length that replaces the scores of the keys not kept by `-∞`,
  the maximum of each row of masked scores, the exponentials of the scores shifted by that maximum (the weights), their
  sum along the row, the weights divided by that sum, and last the sum over the keys of the normalised weight times the
  key's row. Each stage is read at an index from the stage before it; the positions a layout operation reads are
  identified with the coordinates `(b, q, j)`, `(b, q)` or `(b)` by comparing them axis by axis. The maximum over the
  keys is a fold of `max` from `-∞` over the reduced axis, and a further `max` with `-∞` changes nothing. No sum over
  the keys or over the features is ever expanded: every step under a sum is a congruence.
-/
import proofs.«402539_j83124797047010_3_alg».proof.Proof.Gen.ReferenceIdeal.Read
import proofs.«402539_j83124797047010_3_alg».proof.Proof.Attn

noncomputable section

namespace Cert.ReferenceIdeal.RefValue

open Cert.ReferenceIdeal Cert.ReferenceIdeal.Gen Cert.ReferenceIdeal.Read Idealize.ShloMosaic Idealize.ShloMosaic.StableHlo
open Cert.Attn

/-- The arrays of the rows and of the lengths. -/
abbrev X0 := (⟨S16x2048x256, .f32⟩ : BufTy).Contents (Elt Ideal)
abbrev X1 := (⟨S16, .i32⟩ : BufTy).Contents (Elt Ideal)

/-- The word of the initial value of the maximum is `-∞`. -/
theorem ofBits_ninf : Ideal.ofBits .f32 0xFF800000#32 = (⊥ : EReal) := by simp [Ideal.ofBits, Ideal.ieee]

/-- The first product of rows, at an index, is the inner product of the two rows. -/
theorem score_eq (x0 : X0) (b : Fin 16) (q j : Fin 2048) :
    val_main_v0 (F := Ideal) x0 (ValueIdx.ix3 b q j) = score (xOf x0) b q j := by
  rw [val_main_v0_apply]
  have el : ∀ k : Fin 256, lidx_main_v0 (ValueIdx.ix3 b q j) k = ValueIdx.ix3 b q k := fun k =>
    funext fun a => Fin.ext (by match a with | ⟨0, _⟩ => rfl | ⟨1, _⟩ => rfl | ⟨2, _⟩ => rfl)
  have er : ∀ k : Fin 256, ridx_main_v0 (ValueIdx.ix3 b q j) k = ValueIdx.ix3 b j k := fun k =>
    funext fun a => Fin.ext (by match a with | ⟨0, _⟩ => rfl | ⟨1, _⟩ => rfl | ⟨2, _⟩ => rfl)
  unfold score xOf
  exact Finset.sum_congr rfl fun k _ => by rw [el, er]

/-- The selected score, at an index, is the masked score. -/
theorem masked_eq (x0 : X0) (x1 : X1) (b : Fin 16) (q j : Fin 2048) :
    val_main_v7 (F := Ideal) x0 x1 (ValueIdx.ix3 b q j) = masked (xOf x0) (lenOf x1) b q j := by
  rw [val_main_v7_apply, val_main_call0_v1_apply, val_main_v6_apply, val_main_v4_apply, val_main_v2_apply, val_main_v1_apply,
    val_main_v5_apply, val_main_v3_apply, val_main_call0_v2_apply, val_main_call0_v0_apply, val_main_cst_apply, score_eq]
  have e1 : idx_main_v3 (idx_main_v5 (idx_main_call0_v1 (ValueIdx.ix3 b q j))) = ValueIdx.ix1 b :=
    funext fun a => Fin.ext (by match a with | ⟨0, _⟩ => rfl)
  rw [e1, Ideal.ofBits_def, ofBits_ninf]
  unfold masked keep lenOf
  show Scalar.select (IntOp.cmpi .slt (BitVec.ofNat 32 j.val) (x1 (ValueIdx.ix1 b))) _ _ = _
  unfold Scalar.select IntOp.cmpi
  cases h : (BitVec.ofNat 32 j.val).slt (x1 (ValueIdx.ix1 b)) <;> simp [h]

/-- The reduced axis inserted into a row's index gives the index of the key. -/
theorem lift_eq (h : S16x2048x2048.Reduces [2] S16x2048) (b : Fin 16) (q : Fin 2048) (k : Fin (S16x2048x2048.size 2)) :
    h.lift (ValueIdx.ix2 b q) k = ValueIdx.ix3 b q (⟨k.val, k.isLt⟩ : Fin 2048) :=
  funext fun a => Fin.ext (by
    show h.liftVal (ValueIdx.ix2 b q) k.val a = _
    match a with
    | ⟨0, _⟩ => rfl
    | ⟨1, _⟩ => rfl
    | ⟨2, _⟩ => rfl)

/-- The maximum over the keys, then the maximum with `-∞`, is the row's maximum. -/
theorem rowMax_eq (x0 : X0) (x1 : X1) (b : Fin 16) (q : Fin 2048) :
    val_main_v10 (F := Ideal) x0 x1 (ValueIdx.ix2 b q) = rowMax (xOf x0) (lenOf x1) b q := by
  have h : S16x2048x2048.Reduces [2] S16x2048 := by decide
  rw [val_main_v10_apply, val_main_v9_apply, val_main_cst_1_apply, Ideal.ofBits_def, ofBits_ninf, Ideal.maximumf_def]
  unfold val_main_v8
  rw [Host.reduce_eq_fold_single _ _ _ reducesTo_S16x2048x2048_S16x2048_d2 h h_S_, val_main_cst_0_apply, Ideal.ofBits_def,
    ofBits_ninf]
  have hf : val_main_v7 (F := Ideal) x0 x1 ∘ h.lift (ValueIdx.ix2 b q) = masked (xOf x0) (lenOf x1) b q :=
    funext fun k => by
      show val_main_v7 (F := Ideal) x0 x1 (h.lift (ValueIdx.ix2 b q) k) = masked (xOf x0) (lenOf x1) b q ⟨k.val, k.isLt⟩
      rw [lift_eq, masked_eq]
  rw [hf]
  exact max_eq_right bot_le

/-- The exponential of the shifted masked score is the weight. -/
theorem wgt_eq (x0 : X0) (x1 : X1) (b : Fin 16) (q j : Fin 2048) :
    val_main_v14 (F := Ideal) x0 x1 (ValueIdx.ix3 b q j) = wgt (xOf x0) (lenOf x1) b q j := by
  have e : idx_main_v11 (idx_main_v12 (ValueIdx.ix3 b q j)) = ValueIdx.ix2 b q :=
    funext fun a => Fin.ext (by match a with | ⟨0, _⟩ => rfl | ⟨1, _⟩ => rfl)
  rw [val_main_v14_apply, val_main_v13_apply, val_main_v12_apply, val_main_v11_apply, e, rowMax_eq, masked_eq,
    Ideal.hostUnary_exp_def, Ideal.subf_def]
  rfl

/-- The sum of the weights over the keys, from zero, is the row's sum. -/
theorem rowSum_eq (x0 : X0) (x1 : X1) (b : Fin 16) (q : Fin 2048) :
    val_main_v15 (F := Ideal) x0 x1 (ValueIdx.ix2 b q) = rowSum (xOf x0) (lenOf x1) b q := by
  have e : ∀ k : Fin 2048, idx_main_v15 (ValueIdx.ix2 b q) k = ValueIdx.ix3 b q k := fun k =>
    funext fun a => Fin.ext (by match a with | ⟨0, _⟩ => rfl | ⟨1, _⟩ => rfl | ⟨2, _⟩ => rfl)
  rw [val_main_v15_apply, val_main_cst_2_apply, Ideal.ofBits_def, Ideal.ofBits_zero_f32, zero_add]
  unfold rowSum
  exact Finset.sum_congr rfl fun k _ => by rw [e, wgt_eq]

/-- The weight divided by the row's sum. -/
theorem nwgt_eq (x0 : X0) (x1 : X1) (b : Fin 16) (q j : Fin 2048) :
    val_main_v18 (F := Ideal) x0 x1 (ValueIdx.ix3 b q j)
      = Ideal.div (wgt (xOf x0) (lenOf x1) b q j) (rowSum (xOf x0) (lenOf x1) b q) := by
  have e : idx_main_v16 (idx_main_v17 (ValueIdx.ix3 b q j)) = ValueIdx.ix2 b q :=
    funext fun a => Fin.ext (by match a with | ⟨0, _⟩ => rfl | ⟨1, _⟩ => rfl)
  rw [val_main_v18_apply, val_main_v17_apply, val_main_v16_apply, e, rowSum_eq, wgt_eq, Ideal.hostDivf_def]

/-- The reference's result, read at an index, is the sum of the rows weighted by the normalised weights. -/
theorem ref_eq (x0 : (⟨Cert.ReferenceIdeal.S16x2048x256, .f32⟩ : BufTy).Contents (Elt Ideal)) (x1 : (⟨Cert.ReferenceIdeal.S16, .i32⟩ : BufTy).Contents (Elt Ideal)) (i : Cert.ReferenceIdeal.S16x2048x256.Idx) :
    Cert.ReferenceIdeal.Read.val_main_v19 (F := Ideal) x0 x1 i
      = Cert.Attn.outR (Cert.Attn.xOf x0) (Cert.Attn.lenOf x1) (i 0) (i 1) (i 2) := by
  obtain ⟨b, q, d, rfl⟩ : ∃ b q d, i = ValueIdx.ix3 b q d := ⟨i 0, i 1, i 2, ValueIdx.eq_ix3 i⟩
  have el : ∀ k : Fin 2048, lidx_main_v19 (ValueIdx.ix3 b q d) k = ValueIdx.ix3 b q k := fun k =>
    funext fun a => Fin.ext (by match a with | ⟨0, _⟩ => rfl | ⟨1, _⟩ => rfl | ⟨2, _⟩ => rfl)
  have er : ∀ k : Fin 2048, ridx_main_v19 (ValueIdx.ix3 b q d) k = ValueIdx.ix3 b k d := fun k =>
    funext fun a => Fin.ext (by match a with | ⟨0, _⟩ => rfl | ⟨1, _⟩ => rfl | ⟨2, _⟩ => rfl)
  rw [val_main_v19_apply]
  show _ = outR (xOf x0) (lenOf x1) b q d
  unfold outR
  exact Finset.sum_congr rfl fun k _ => by rw [el, er, nwgt_eq]; rfl

end Cert.ReferenceIdeal.RefValue

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.AttnLaw.lean ====
/-
  The one algebraic law of masked self-attention: normalising the weighted sum of the rows, or normalising each
  weight before summing, gives the same value, provided every entry is a real number and every batch keeps at
  least one key.

  The argument.  A score is a finite sum of products of reals, hence a real.  A masked score is therefore a real
  or `-∞`.  Every length is positive as a signed word, so key `0` (the word `0`) is kept in every batch, and the
  masked score at key `0` is a real.  The row's maximum is a fold of `max` from `-∞` over values that are each a
  real or `-∞`: it is again a real or `-∞`, it dominates the real value at key `0`, so it is a real `m`.
  A masked score minus `m` is a real or `-∞` (`-∞ - m = -∞`); the exponential of a real is a positive real and the
  exponential of `-∞` is `0`.  So every weight is a non-negative real, positive where the key is kept, and the
  row's sum `L` is a positive real, in particular not zero.  Division by a nonzero real is multiplication by its
  real inverse, so with every term real the law is `(Σ w v) / L = Σ (w / L) v` in the field of real numbers.
-/
import proofs.«402539_j83124797047010_3_alg».proof.Proof.Attn
import proofs.«402539_j83124797047010_3_alg».proof.Proof.LibReal
import Mathlib.Data.Finset.Fold
import Mathlib.Algebra.Order.BigOperators.Group.Finset
import Mathlib.Analysis.SpecialFunctions.Exp

open scoped BigOperators

noncomputable section

namespace Cert.Attn

open Idealize.ShloMosaic Cert.LibReal

/-! ### The law over the reals, for any finite set of keys -/

/-- With real weights `w`, real values `v` and a nonzero real `L`, dividing the weighted sum by `L` is summing the
    values weighted by `w / L`: both sides are coercions of reals, and in `ℝ` this is distributivity. -/
theorem div_sum_eq_sum_div {J : Type} (s : Finset J) (w v : J → ℝ) (L : ℝ) (hL : L ≠ 0) :
    Ideal.div (∑ j ∈ s, (w j : EReal) * (v j : EReal)) (L : EReal)
      = ∑ j ∈ s, Ideal.div (w j : EReal) (L : EReal) * (v j : EReal) := by
  simp only [Ideal.div_coe hL, ← EReal.coe_mul, ← coe_sum]
  congr 1
  rw [Finset.sum_mul]
  exact Finset.sum_congr rfl fun j _ => by ring

/-! ### A fold of `max` from `-∞` over values that are real or `-∞` -/

/-- An extended real that is a real number or `-∞`. -/
def RealOrBot (x : EReal) : Prop := IsReal x ∨ x = ⊥

/-- The larger of two such values is one of them. -/
theorem RealOrBot.max {x y : EReal} (hx : RealOrBot x) (hy : RealOrBot y) : RealOrBot (max x y) := by
  rcases le_total x y with h | h
  · rw [max_eq_right h]; exact hy
  · rw [max_eq_left h]; exact hx

/-- The fold of `max` from `-∞` stays in the class: by induction on the set of keys. -/
theorem realOrBot_fold {J : Type} (s : Finset J) (f : J → EReal) :
    (∀ j ∈ s, RealOrBot (f j)) → RealOrBot (s.fold max ⊥ f) := by
  classical
  refine Finset.induction_on s ?_ ?_
  · intro _; rw [Finset.fold_empty]; exact Or.inr rfl
  · intro a t ha ih h
    rw [Finset.fold_insert ha]
    exact RealOrBot.max (h a (Finset.mem_insert_self a t))
      (ih fun j hj => h j (Finset.mem_insert_of_mem hj))

/-- If moreover one value is a real, the fold is a real: it is at least that value, so it is not `-∞`. -/
theorem fold_max_isReal {J : Type} (s : Finset J) (f : J → EReal) (hf : ∀ j ∈ s, RealOrBot (f j))
    (j0 : J) (hj0 : j0 ∈ s) (h0 : IsReal (f j0)) : IsReal (s.fold max ⊥ f) := by
  rcases realOrBot_fold s f hf with h | h
  · exact h
  · exfalso
    have hle : f j0 ≤ s.fold max ⊥ f := (Finset.le_fold_max (f j0)).mpr (Or.inr ⟨j0, hj0, le_refl _⟩)
    obtain ⟨r, hr⟩ := h0
    rw [h, hr] at hle
    exact EReal.coe_ne_bot r (le_bot_iff.mp hle)

/-! ### The attention row -/

section
variable (x : Fin 16 → Fin 2048 → Fin 256 → EReal) (len : Fin 16 → BitVec 32)

/-- A score of real rows is a real: a finite sum of products of reals. -/
theorem score_isReal (hx : ∀ b i k, ∃ r : ℝ, x b i k = (r : EReal)) (b : Fin 16) (i j : Fin 2048) :
    IsReal (score x b i j) :=
  IsReal.sum Finset.univ _ fun k _ => IsReal.mul (hx b i k) (hx b j k)

/-- Key `0` is kept in every batch: the word `0` has signed value `0`, below every positive length. -/
theorem keep_zero (hlen : ∀ b, 0 < (len b).toInt) (b : Fin 16) :
    keep len b ⟨0, by norm_num⟩ = true := by
  unfold keep
  rw [BitVec.slt_eq_decide, decide_eq_true_eq]
  have h0 : (BitVec.ofNat 32 0).toInt = 0 := by decide
  show (BitVec.ofNat 32 0).toInt < (len b).toInt
  rw [h0]
  exact hlen b

/-- A masked score is a real or `-∞`. -/
theorem masked_realOrBot (hx : ∀ b i k, ∃ r : ℝ, x b i k = (r : EReal)) (b : Fin 16) (i j : Fin 2048) :
    RealOrBot (masked x len b i j) := by
  rw [masked]
  by_cases hk : keep len b j = true
  · rw [if_pos hk]; exact Or.inl (score_isReal x hx b i j)
  · rw [if_neg hk]; exact Or.inr rfl

/-- The row's maximum is a real: the masked score at key `0` is one. -/
theorem rowMax_isReal (hx : ∀ b i k, ∃ r : ℝ, x b i k = (r : EReal)) (hlen : ∀ b, 0 < (len b).toInt)
    (b : Fin 16) (i : Fin 2048) : IsReal (rowMax x len b i) := by
  rw [rowMax]
  refine fold_max_isReal Finset.univ _ (fun j _ => masked_realOrBot x len hx b i j) ⟨0, by norm_num⟩
    (Finset.mem_univ _) ?_
  rw [masked, if_pos (keep_zero len hlen b)]
  exact score_isReal x hx b i _

/-- Every weight is a non-negative real, positive where the key is kept. -/
theorem wgt_spec (hx : ∀ b i k, ∃ r : ℝ, x b i k = (r : EReal)) (hlen : ∀ b, 0 < (len b).toInt)
    (b : Fin 16) (i j : Fin 2048) :
    ∃ w : ℝ, 0 ≤ w ∧ (keep len b j = true → 0 < w) ∧ wgt x len b i j = (w : EReal) := by
  obtain ⟨m, hm⟩ := rowMax_isReal x len hx hlen b i
  rw [wgt, hm, masked]
  by_cases hk : keep len b j = true
  · rw [if_pos hk]
    obtain ⟨s, hs⟩ := score_isReal x hx b i j
    rw [hs, ← EReal.coe_sub, Ideal.exp_coe]
    exact ⟨Real.exp (s - m), (Real.exp_pos _).le, fun _ => Real.exp_pos _, rfl⟩
  · rw [if_neg hk, EReal.bot_sub, Ideal.exp_bot]
    exact ⟨0, le_refl 0, fun h => absurd h hk, EReal.coe_zero.symm⟩

/-- The two placements of the normalisation agree. -/
theorem outK_eq_outR (hx : ∀ b i k, ∃ r : ℝ, x b i k = (r : EReal)) (hlen : ∀ b, 0 < (len b).toInt)
    (b : Fin 16) (i : Fin 2048) (d : Fin 256) : outK x len b i d = outR x len b i d := by
  have hw := fun j => wgt_spec x len hx hlen b i j
  choose w hw0 hwpos hwe using hw
  choose r hr using hx
  -- the row's sum is the coercion of a positive real
  have hL : (0 : ℝ) < ∑ j, w j :=
    Finset.sum_pos' (fun j _ => hw0 j)
      ⟨⟨0, by norm_num⟩, Finset.mem_univ _, hwpos _ (keep_zero len hlen b)⟩
  have hS : (∑ j, (w j : EReal)) = ((∑ j, w j : ℝ) : EReal) := (coe_sum Finset.univ w).symm
  unfold outK outR rowSum
  simp only [hwe, hr]
  rw [hS]
  exact div_sum_eq_sum_div Finset.univ w (fun j => r b j d) _ hL.ne'

end

end Cert.Attn

end
-- ==== Proof.PreFacts.lean ====
import proofs.«402539_j83124797047010_3_alg».proof.Pre_finite_inputs
import proofs.«402539_j83124797047010_3_alg».proof.Proof.Gen.Pre_finite_inputs
import Idealize.ShloMosaic.PureOps.Ideal
import Idealize.ShloMosaic.Lib.ReduceAll
import Idealize.ShloMosaic.Lib.ValueIdx
import Idealize.ShloMosaic.Lib.StableHlo.Predicate

/-!
# Reading the precondition back

The precondition is a boolean: the conjunction of "every entry of the float input has absolute value
strictly below +∞" and "every length is at least one (signed)".  When it evaluates to true over the
extended reals, every float entry is a real number and every length is a positive integer.
-/

open Idealize.ShloMosaic

namespace Cert.PreFacts

open Cert.Pre_finite_inputs

/-- A rank-0 shape has exactly one index. -/
instance : Subsingleton S_.Idx := ⟨fun a b => funext fun d => d.elim0⟩

/-- An extended real whose absolute value `max x (-x)` lies strictly below the value of the IEEE
pattern of +∞ (which is `⊤`) is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  simp only [Ideal.cmp] at h
  rw [StableHlo.Predicate.ofBool_eq_one_iff, decide_eq_true_eq] at h
  induction x using EReal.rec with
  | bot => simp at h
  | coe r => exact ⟨r, rfl⟩
  | top => simp at h

/-- A 32-bit word that is at least 1 in the signed order is positive as an integer. -/
theorem pos_of_sge_one (w : BitVec 32) (h : IntOp.cmpi .sge w 1#32 = 1#1) : 0 < w.toInt := by
  simp only [IntOp.cmpi] at h
  rw [StableHlo.Predicate.ofBool_eq_one_iff] at h
  have h1 : (1#32 : BitVec 32).toInt ≤ w.toInt := BitVec.sle_iff_toInt_le.1 h
  have h2 : (1#32 : BitVec 32).toInt = 1 := by decide
  omega

theorem decode [Cert.Pre_finite_inputs.Facts]
    (x : FVec Ideal Cert.Pre_finite_inputs.S16x2048x256 .f32) (len : IVec Cert.Pre_finite_inputs.S16 32)
    (h : Cert.Pre_finite_inputs.fn (F := Ideal) x len = fun _ => 1#1) :
    (∀ i, ∃ r : ℝ, x i = (r : EReal)) ∧ (∀ j, 0 < (len j).toInt) := by
  have h0 := congrFun h ValueIdx.ix0
  dsimp only [Cert.Pre_finite_inputs.fn] at h0
  obtain ⟨hA, hB⟩ := IntOp.andi_eq_one.1 h0
  refine ⟨fun i => ?_, fun j => ?_⟩
  · exact real_of_abs_lt_inf (x i) (Host.reduce_andi_all _ _ _ _ _ hA i)
  · exact pos_of_sge_one (len j) (Host.reduce_andi_all _ _ _ _ _ hB j)

end Cert.PreFacts
-- ==== Proof.lean ====
/-
  Masked self-attention over 16 batches of 2048 rows of 256 features: the pipelined kernel against the reference.

  Both programs compute, for a batch `b`, a query row `i` and a feature `d`, the inner products of row `i` with
  every row `j`, keep those whose position `j` is below the batch's length and put `-∞` elsewhere, shift by the
  row's maximum, exponentiate, and take the weighted sum of the rows normalised by the sum of the weights. The
  kernel does so one tile of 1024 query rows at a time, with the batch's rows resident, filling the masked places
  with a large negative number that the idealized program reads as `-∞`, and divides the weighted sum by the sum
  of the weights; the reference divides each weight first. Over the extended reals the two agree wherever the sum
  of the weights is a nonzero real, which is the case when every entry is finite and every length is at least one:
  key `0` is then kept in every batch, the row's maximum is a real, every weight a non-negative real and the
  weight of key `0` positive. (With a length below one every key of the batch is masked, the row's sum is zero,
  and the quotient is undefined in the reference itself; the precondition keeps the lengths at one or more.)

  The frames: each kernel program is one pipelined region whose body is run once, symbolically, on whole staging
  buffers; the library's frame run for a pipeline with a table in scalar memory gives termination, no fault, and
  the arguments unchanged, with the output array after the run read block by block. The reference's frame is its
  run with the result dropped. The idealization's one rewrite names the fill value `-∞`.
-/
import proofs.«402539_j83124797047010_3_alg».proof.Defs
import proofs.«402539_j83124797047010_3_alg».proof.Proof.Gen.Kernel
import proofs.«402539_j83124797047010_3_alg».proof.Proof.Gen.KernelIdeal
import proofs.«402539_j83124797047010_3_alg».proof.Proof.Gen.ReferenceIdeal
import proofs.«402539_j83124797047010_3_alg».proof.Proof.Gen.ReferenceIdeal.Run
import proofs.«402539_j83124797047010_3_alg».proof.Proof.Gen.ReferenceIdeal.Read
import proofs.«402539_j83124797047010_3_alg».proof.Proof.Gen.Pre_finite_inputs
import proofs.«402539_j83124797047010_3_alg».proof.Proof.KFrame
import proofs.«402539_j83124797047010_3_alg».proof.Proof.KIValue
import proofs.«402539_j83124797047010_3_alg».proof.Proof.RefValue
import proofs.«402539_j83124797047010_3_alg».proof.Proof.AttnLaw
import proofs.«402539_j83124797047010_3_alg».proof.Proof.PreFacts
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level kernel runs, and its arguments end unchanged. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- The reference runs: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the fill value is named `-∞`, and the table gives the name that value. -/
theorem preserves : Cert.preserves_Kernel_KernelIdeal :=
  IdealRules.named_const.statement Cert.KernelIdeal.κ "neg_big" .f32 0xFF333332#32 ⊥ rfl

/-- From memories agreeing on the arguments, the idealized kernel's output array and the reference's result are the
    same array: the kernel's is the specification with the weighted sum divided, the reference's the specification with
    each weight divided, and under the precondition the two are equal at every index. -/
theorem algebraic : Cert.algebraic_KernelIdeal_ReferenceIdeal := by
  intro m ρ m' ρ' hpre hagree
  refine ⟨fun c => Cert.KernelIdeal.Hand.Gfun (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v19_eq _ _).trans ?_
  rw [(hagree c).1, (hagree c).2]
  obtain ⟨hx, hlen⟩ := Cert.PreFacts.decode _ _ (hpre c)
  funext i
  rw [Cert.ReferenceIdeal.RefValue.ref_eq]
  exact (Cert.Attn.outK_eq_outR _ _ (fun b i k => hx _) (fun b => hlen _) _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
